-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 52
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x1, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S128x128, .f32⟩
  | .hbm, ⟨50, _⟩ => ⟨S1x128, .f32⟩
  | .hbm, ⟨51, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x1, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .hbm, ⟨50, _⟩ => ⟨S128x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.DenseRelu.lean ====
/-
  The function of the argument arrays that both programs compute, one entry at a time.

  For a node r (a row of the feature matrix x : [50000, 128]) and an output feature j, with a : [50000, 128] the
  degree-normalised sum of the neighbours' rows (whatever array stands there: both programs build it by the same
  scatter-add, and nothing below opens it), w : [128, 128] the weight matrix stored [out, in] and b : [128] the
  bias, the entry is

      max (∑ₖ (x[r, k] − a[r, k]) · w[j, k] + b[j]) 0

  on the extended reals: the high-pass difference x − a, its product with the transpose of w, the bias added, and
  the rectifier. The sum runs over the 128 input features in their natural order; no rearrangement of it is needed,
  since the kernel's matrix product into a zero accumulator and the reference's contraction both read, at an entry,
  as this one sum.
-/
import Idealize.ShloMosaic.PureOps.Ideal
import Idealize.ShloMosaic.Lib.ValueIdx

noncomputable section

namespace Cert.DenseRelu

open Idealize.ShloMosaic Idealize.ShloMosaic.ValueIdx

/-- `relu ((x − a) · wᵀ + b)` entry by entry: row `i 0`, output feature `i 1`, the contraction over the 128 input
    features. -/
def highPassLayer (x a : FVec Ideal ⟨2, ![50000, 128]⟩ .f32) (w : FVec Ideal ⟨2, ![128, 128]⟩ .f32)
    (b : FVec Ideal ⟨1, ![128]⟩ .f32) : FVec Ideal ⟨2, ![50000, 128]⟩ .f32 :=
  fun i => max ((∑ k : Fin 128, (x (ix2 (i 0) k) - a (ix2 (i 0) k)) * w (ix2 (i 1) k)) + b (ix1 (i 1))) 0

end Cert.DenseRelu

end
-- ==== Proof.BlockPayload.lean ====
/-
  One grid point of the kernel, read at an entry of its output block.

  At a grid point the body holds a block xb : [2000, 128] of the feature matrix, the matching block ab : [2000, 128] of
  the neighbour sum, the whole transposed weight matrix wt : [128, 128] (stored [in, out]) and the bias as a row
  br : [1, 128]. It stores

      max ((xb − ab) · wt + br) 0,

  the product taken on the matrix unit into a zero accumulator after both factors are narrowed to bf16. On the
  extended reals narrowing is the identity and the zero accumulator adds nothing, so entry (p, q) of what is stored is

      max (∑ₖ (xb[p, k] − ab[p, k]) · wt[k, q] + br[0, q]) 0,

  the sum over the one contracted axis in its natural order. The four small lemmas before the product's say which
  coordinates of the two factors the contraction reads: the left factor at (p, k), the right at (k, q).
-/
import proofs.«175536_j46377056862934_1_alg».proof.Proof.Gen.KernelIdeal.Skeleton
import Idealize.ShloMosaic.Lib.Pipeline.Value
import Idealize.ShloMosaic.Lib.ValueIdx
import Idealize.ShloMosaic.PureOps.Ideal.Laws
import proofs.«175536_j46377056862934_1_alg».proof.Proof.DenseRelu

noncomputable section

namespace Cert.KernelIdeal.Body

open Cert.KernelIdeal Cert.KernelIdeal.Gen Idealize.ShloMosaic Idealize.ShloMosaic.ValueIdx

/-- The left factor's row coordinate is the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left factor's column coordinate is the contraction index. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right factor's row coordinate is the contraction index. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right factor's column coordinate is the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at entry (p, q): the sum over k of left (p, k) times right (k, q). -/
theorem product_at (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row spread over the block's 2000 rows, at entry (p, q): the row's entry (0, q). -/
theorem bias_at (br : FVec Ideal S1x128 .f32) (p : Fin 2000) (q : Fin 128) :
    broadcastTo S2000x128 br broadcasts_S1x128_S2000x128 (ix2 p q) = br (ix2 0 q) :=
  broadcastTo_apply br broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- What the body stores, at entry (p, q) of the block. -/
theorem stored_at (xb ab : Vec Ideal S2000x128 .f32) (wt : Vec Ideal S128x128 .f32) (br : Vec Ideal S1x128 .f32)
    (p : Fin 2000) (q : Fin 128) :
    k0_pay1 xb ab wt br (ix2 p q)
      = max ((∑ k : Fin 128, (xb (ix2 p k) - ab (ix2 p k)) * wt (ix2 k q)) + br (ix2 0 q)) 0 := by
  unfold k0_pay1
  simp only [shapeCast_self]
  rw [maximumf_apply, addf_apply, product_at, bias_at, broadcast_apply]
  show max ((∑ k : Fin 128, (xb (ix2 p k) - ab (ix2 p k)) * wt (ix2 k q)) + br (ix2 0 q)) (Ideal.ofBits .f32 0x00000000#32) = _
  rw [Ideal.ofBits_zero_f32]

/-- A block's entry is the layer's entry of the whole arrays. If the block's rows are rows `row` of the feature matrix `X`
    and of the neighbour sum `A` (`hx`, `ha`), the staged weights are the transpose of `W` (`hw`: entry (k, q) of the
    staged matrix is entry (q, k) of `W`) and the staged bias row is `b` (`hb`), then entry (p, q) of what the body stores
    is entry (row, q) of `relu ((X − A) · Wᵀ + b)`: the two sums agree term by term. -/
theorem stored_eq_layer (xb ab : Vec Ideal S2000x128 .f32) (wt : Vec Ideal S128x128 .f32) (br : Vec Ideal S1x128 .f32)
    (X A : FVec Ideal ⟨2, ![50000, 128]⟩ .f32) (W : FVec Ideal ⟨2, ![128, 128]⟩ .f32) (b : FVec Ideal ⟨1, ![128]⟩ .f32)
    (p : Fin 2000) (q : Fin 128) (row : Fin 50000)
    (hx : ∀ k : Fin 128, xb (ix2 p k) = X (ix2 row k)) (ha : ∀ k : Fin 128, ab (ix2 p k) = A (ix2 row k))
    (hw : ∀ k : Fin 128, wt (ix2 k q) = W (ix2 q k)) (hb : br (ix2 0 q) = b (ix1 q)) :
    k0_pay1 xb ab wt br (ix2 p q) = Cert.DenseRelu.highPassLayer X A W b (ix2 row q) := by
  rw [stored_at, hb]
  unfold Cert.DenseRelu.highPassLayer
  refine congrArg (fun s => max (s + b (ix1 q)) 0) (Finset.sum_congr rfl fun k _ => ?_)
  rw [hx k, ha k, hw k]

end Cert.KernelIdeal.Body

end
-- ==== Proof.RegionArrays.lean ====
/-
  What the region finds in the two small arrays the host prepared for it.

  Before the kernel region the host transposes the weight matrix W : [out, in] into wt : [in, out] and reshapes the
  bias b : [128] into a row [1, 128]. No later host operation writes either array, so when the region is entered

      wt[k, j] = W[j, k]        and        row[0, j] = b[j].

  Each array's contents is first read back as the one operation that wrote it, applied to the argument as launched
  (every other operation of the prefix writes elsewhere), and then read at an index: a transpose swaps the two
  coordinates, and a reshape keeps the row-major position, which for [128] → [1, 128] is the column.
-/
import proofs.«175536_j46377056862934_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged weight matrix is the transpose of the argument. -/
theorem weights_term (c : Dev nD) :
    (V m c main_v33 : S128x128.Idx → EReal)
      = transpose S128x128 [1, 0] (m ((c : Thread nD τ).loc main_arg2)) transposes_S128x128_S128x128_1_0 := by
  dsimp only [V]
  simp only [hostOps0, hostOps0_1, hostOps0_2, List.flatten_cons, List.flatten_nil, List.append_nil, List.cons_append,
    List.nil_append]
  after_results_simp <;> rfl

/-- Entry (k, j) of the staged weight matrix is entry (j, k) of the argument. -/
theorem weights_at (c : Dev nD) (k j : Fin 128) :
    (V m c main_v33 : S128x128.Idx → EReal) (ix2 k j) = (m ((c : Thread nD τ).loc main_arg2) : S128x128.Idx → EReal) (ix2 j k) := by
  rw [weights_term]
  exact transpose_apply [1, 0] _ transposes_S128x128_S128x128_1_0 (ix2 k j) (ix2 j k) (fun b => match b with
    | ⟨0, _⟩ => rfl
    | ⟨1, _⟩ => rfl)

/-- The staged bias row is the argument reshaped. -/
theorem bias_term (c : Dev nD) :
    (V m c main_v34 : S1x128.Idx → EReal)
      = shapeCast S1x128 (m ((c : Thread nD τ).loc main_arg3) : S128.Idx → EReal) shapeCasts_S128_S1x128 := by
  dsimp only [V]
  simp only [hostOps0, hostOps0_1, hostOps0_2, List.flatten_cons, List.flatten_nil, List.append_nil, List.cons_append,
    List.nil_append]
  after_results_simp <;> rfl

/-- Entry (0, j) of the staged bias row is entry j of the argument. -/
theorem bias_at (c : Dev nD) (j : Fin 128) :
    (V m c main_v34 : S1x128.Idx → EReal) (ix2 0 j) = (m ((c : Thread nD τ).loc main_arg3) : S128.Idx → EReal) (ix1 j) := by
  rw [bias_term]
  exact shapeCast_apply _ shapeCasts_S128_S1x128 (ix2 0 j) (ix1 j)
    (by rewrite [Shape.rowMajor_val_one, Shape.rowMajor_val_two]; show j.val = 0 * 128 + j.val; omega)

end Cert.KernelIdeal.Found

end
-- ==== Proof.KernelArray.lean ====
/-
  From the kernel's blocks to its whole result array.

  The grid has 25 points. Point t stages rows 2000·t … 2000·t + 1999 of the feature matrix and of the neighbour sum,
  the whole transposed weight matrix and the whole bias row, and writes back rows 2000·t … 2000·t + 1999 of the result.
  So entry (p, q) of the block point t writes is entry (2000·t + p, q) of the result, and what the body stores there
  (the block payload, read at an entry) is the layer's entry at that row: the feature and neighbour blocks are read
  at row 2000·t + p, the staged weights are the transpose of the argument and the staged bias row is the argument.
  The 25 blocks tile the 50000 rows (row r lies in the block of point r / 2000), so the result array after the
  region is the layer of the arrays as the region found them, at every index.
-/
import proofs.«175536_j46377056862934_1_alg».proof.Proof.Gen.KernelIdeal.Value
import proofs.«175536_j46377056862934_1_alg».proof.Proof.BlockPayload
import proofs.«175536_j46377056862934_1_alg».proof.Proof.RegionArrays

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store are at offset zero on both axes. -/
theorem zero_offsets : (![0, 0] : Fin 2 → Nat) = fun _ => 0 := funext fun a => by fin_cases a <;> rfl

/-- The printed index maps, decided over the 25 points: the two row-blocked inputs and the output are at block row
    `t`, block column 0; the weights and the bias row are always at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer of the arrays as the region finds them: the feature matrix and the neighbour sum as staged, the weight
    matrix and the bias as launched. -/
abbrev layerFound (c : Dev nD) : S50000x128.Idx → EReal :=
  Cert.DenseRelu.highPassLayer (V m c main_arg0) (V m c main_v32) (m ((c : Thread nD τ).loc main_arg2))
    (m ((c : Thread nD τ).loc main_arg3))

/-- A row-blocked input read through point `t`'s block of the first window: entry (p, k) of the block is entry
    (2000·t + p, k) of the array, whatever the array holds. -/
theorem rows_read0 (G : S50000x128.Idx → EReal) (t : Fin cfg0.N) (p : Fin 2000) (k : Fin 128)
    (hrow : t.val * 2000 + p.val < 50000) :
    ((cfg0.win 0).blk t).view.read (Elt Ideal) G (ix2 p k) = G (ix2 (⟨t.val * 2000 + p.val, hrow⟩ : Fin 50000) k) := by
  obtain ⟨e00, e01, -⟩ := block_indices t
  show G (((cfg0.win 0).blk t).view.emb (ix2 p k)) = _
  refine congrArg G (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The same through the second window. -/
theorem rows_read1 (G : S50000x128.Idx → EReal) (t : Fin cfg0.N) (p : Fin 2000) (k : Fin 128)
    (hrow : t.val * 2000 + p.val < 50000) :
    ((cfg0.win 1).blk t).view.read (Elt Ideal) G (ix2 p k) = G (ix2 (⟨t.val * 2000 + p.val, hrow⟩ : Fin 50000) k) := by
  obtain ⟨-, -, e10, e11, -⟩ := block_indices t
  show G (((cfg0.win 1).blk t).view.emb (ix2 p k)) = _
  refine congrArg G (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- The third window's one block is its whole array. -/
theorem whole_read2 (G : S128x128.Idx → EReal) (t : Fin cfg0.N) (k q : Fin 128) :
    ((cfg0.win 2).blk t).view.read (Elt Ideal) G (ix2 k q) = G (ix2 k q) := by
  obtain ⟨-, -, -, -, e20, e21, -⟩ := block_indices t
  show G (((cfg0.win 2).blk t).view.emb (ix2 k q)) = _
  refine congrArg G (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the fourth's. -/
theorem whole_read3 (G : S1x128.Idx → EReal) (t : Fin cfg0.N) (q : Fin 128) :
    ((cfg0.win 3).blk t).view.read (Elt Ideal) G (ix2 (0 : Fin 1) q) = G (ix2 (0 : Fin 1) q) := by
  obtain ⟨-, -, -, -, -, -, e30, e31, -⟩ := block_indices t
  show G (((cfg0.win 3).blk t).view.emb (ix2 (0 : Fin 1) q)) = _
  refine congrArg G (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- Entry (p, q) of the output's block at point `t` is entry (2000·t + p, q) of the result array. -/
theorem out_entry (t : Fin cfg0.N) (p : Fin 2000) (q : Fin 128) (hrow : t.val * 2000 + p.val < 50000) :
    ((cfg0.win 4).blk t).view.emb (ix2 p q) = ix2 (⟨t.val * 2000 + p.val, hrow⟩ : Fin 50000) q := by
  obtain ⟨-, -, -, -, -, -, -, -, e40, e41⟩ := block_indices t
  funext a; apply Fin.ext
  match a with
  | ⟨0, _⟩ => show win0_4.index t (0 : Fin 2) * 2000 + 1 * p.val = t.val * 2000 + p.val; omega
  | ⟨1, _⟩ => show win0_4.index t (1 : Fin 2) * 128 + 1 * q.val = q.val; omega

/-- What point `t` writes back is block `t` of the layer. -/
theorem flushed_eq (c : Dev nD) (t : Fin cfg0.N) :
    (dats m 0 c).flushed 4 t = ((cfg0.win 4).blk t).view.read (Elt Ideal) (layerFound m c) := by
  rw [Value.flushed4]
  unfold out0_4
  rw [View.canon_unit_zero zero_offsets]
  simp only [View.ld_unit_zero (S := S2000x128) zero_offsets, View.ld_unit_zero (S := S128x128) zero_offsets,
    View.ld_unit_zero (S := S1x128) zero_offsets]
  have ht : t.val < 25 := lt_of_lt_of_eq t.isLt N_0
  funext j
  have hp : (j 0).val < 2000 := (j 0).isLt
  have hq : (j 1).val < 128 := (j 1).isLt
  obtain ⟨p, q, rfl⟩ : ∃ (p : Fin 2000) (q : Fin 128), j = ix2 p q :=
    ⟨⟨(j 0).val, hp⟩, ⟨(j 1).val, hq⟩, funext fun a => by match a with | ⟨0, _⟩ => rfl | ⟨1, _⟩ => rfl⟩
  have hrow : t.val * 2000 + p.val < 50000 := by have := p.isLt; omega
  show k0_pay1 (iblk m c 0 t) (iblk m c 1 t) (iblk m c 2 t) (iblk m c 3 t) (ix2 p q)
    = layerFound m c (((cfg0.win 4).blk t).view.emb (ix2 p q))
  rw [out_entry t p q hrow]
  exact Body.stored_eq_layer (iblk m c 0 t) (iblk m c 1 t) (iblk m c 2 t) (iblk m c 3 t) (V m c main_arg0) (V m c main_v32)
    (m ((c : Thread nD τ).loc main_arg2)) (m ((c : Thread nD τ).loc main_arg3)) p q ⟨t.val * 2000 + p.val, hrow⟩
    (fun k => rows_read0 (V m c main_arg0) t p k hrow)
    (fun k => rows_read1 (V m c main_v32) t p k hrow)
    (fun k => (whole_read2 (V m c main_v33) t k q).trans (Found.weights_at m c k q))
    ((whole_read3 (V m c main_v34) t q).trans (Found.bias_at m c q))

/-- An index of the result array is in point `t`'s block iff each coordinate is in the block's range on its axis. -/
theorem mem_block (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v35).slice (win0_4.rect t)).set ↔ _
  rw [View.set_slice_whole, Rect.mem_set_unit]
  exact Iff.rfl

/-- Every index of the result array is in some point's block: row `r` in the block of point `r / 2000`. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : (i 0).val / 2000 < cfg0.N := lt_of_lt_of_eq (by omega : (i 0).val / 2000 < 25) N_0.symm
  obtain ⟨-, -, -, -, -, -, -, -, e40, e41⟩ := block_indices ⟨(i 0).val / 2000, hN⟩
  have e40' : win0_4.index ⟨(i 0).val / 2000, hN⟩ (0 : Fin 2) = (i 0).val / 2000 := e40
  refine ⟨⟨(i 0).val / 2000, hN⟩, flush0_4 _, ?_⟩
  rw [mem_block]
  intro a
  match a with
  | ⟨0, _⟩ =>
    show win0_4.index ⟨(i 0).val / 2000, hN⟩ (0 : Fin 2) * 2000 ≤ (i 0).val
      ∧ (i 0).val < win0_4.index ⟨(i 0).val / 2000, hN⟩ (0 : Fin 2) * 2000 + 2000
    omega
  | ⟨1, _⟩ =>
    show win0_4.index ⟨(i 0).val / 2000, hN⟩ (1 : Fin 2) * 128 ≤ (i 1).val
      ∧ (i 1).val < win0_4.index ⟨(i 0).val / 2000, hN⟩ (1 : Fin 2) * 128 + 128
    omega

/-- The result array after the region is the layer of the arrays as the region found them. -/
theorem array_eq (c : Dev nD) : (dats m 0 c).arrAt 4 cfg0.N = layerFound m c :=
  (dats m 0 c).arrAt_eq_of_cover 4 (layerFound m c) (fun t _ => flushed_eq m c t) covered

end Cert.KernelIdeal.Whole

end
-- ==== Proof.NeighbourSum.lean ====
/-
  The neighbour sum is one and the same term in both programs.

  Both programs build a : [50000, 128], the degree-normalised sum of each node's incoming neighbours' rows, on the host
  and by the same operations in the same order: the two rows of the edge list sliced out and flattened, the in-degree
  as a scatter-add of ones, its reciprocal where the degree is positive and zero elsewhere, that weight gathered per
  edge, the source rows gathered and scaled, and the scaled rows scatter-added at the destination nodes. In the kernel
  program this is the array its second window stages; in the reference it is the stage the subtraction reads.

  Two steps. First the staged array is read back through the kernel program's host prefix as those operations
  composed, applied to the feature matrix and the edge list as launched (`staged_term`). Then that composed term is
  the reference's stage at the same two arguments: the two are the same operations with the same dimension numbers
  and the same constants, so the equation holds by unfolding the stage's definitions, and nothing about scatter or
  gather is opened (`neighbourSum_eq`).
-/
import proofs.«175536_j46377056862934_1_alg».proof.Proof.Gen.KernelIdeal.Frame
import proofs.«175536_j46377056862934_1_alg».proof.Proof.RefReadPatched
import Idealize.ShloMosaic.Lib.StableHlo.Run

noncomputable section

namespace Cert.KernelIdeal.Found

open Cert.KernelIdeal Cert.KernelIdeal.Gen Idealize.ShloMosaic Idealize.ShloMosaic.TcCoe Idealize.SL.Sem
open Idealize.ShloMosaic.StableHlo

variable {F : FTy → Type} [FloatOps F]

set_option maxHeartbeats 2000000 in
/-- The array the kernel's second window stages, as the host prefix's operations composed over the launched feature
    matrix and edge list. -/
theorem staged_term (m : (ℓ : Loc nD τ sig) → Buf (Elt F) ℓ) (c : Dev nD) :
    V m c main_v32 = (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] (m ((c.tc : Thread nD τ).loc main_arg1)) slices_S2x800000_S1x800000_1_0) shapeCasts_S1x800000_S800000)) (mulf (Host.gather gather_S50000x128_S800000x1_S800000x128_1_0_n_n_0_1_1128 (m ((c.tc : Thread nD τ).loc main_arg0)) (broadcastInDim S800000x1 ![0] bcast_S800000_S800000x1_0 (select (cmpi .slt (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 0#32))) (addi (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg1)) slices_S2x800000_S1x800000_0_0) shapeCasts_S1x800000_S800000)))) (broadcastInDim S800000x128 ![0, 1] bcast_S800000x1_S800000x128_0_1 (broadcastInDim S800000x1 ![0] bcast_S800000_S800000x1_0 (Host.gather gather_S50000_S800000x1_S800000_n_0_n_n_0_1_1 (select (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] (m ((c.tc : Thread nD τ).loc main_arg1)) slices_S2x800000_S1x800000_1_0) shapeCasts_S1x800000_S800000)) (broadcastInDim S800000 ![] bcast_S_S800000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] (m ((c.tc : Thread nD τ).loc main_arg1)) slices_S2x800000_S1x800000_1_0) shapeCasts_S1x800000_S800000)) (broadcastInDim S800000 ![] bcast_S_S800000 (constant S_ .f32 0x3F800000#32)))) (broadcastInDim S50000 ![] bcast_S_S50000 (id (constant S_ .f32 0x00000000#32)))) (broadcastInDim S800000x1 ![0] bcast_S800000_S800000x1_0 (select (cmpi .slt (shapeCast _ (extractStridedSlice S1x800000 ![1, 0] (m ((c.tc : Thread nD τ).loc main_arg1)) slices_S2x800000_S1x800000_1_0) shapeCasts_S1x800000_S800000) (broadcastInDim S800000 ![] bcast_S_S800000 (constantI S_ 32 0#32))) (addi (shapeCast _ (extractStridedSlice S1x800000 ![1, 0] (m ((c.tc : Thread nD τ).loc main_arg1)) slices_S2x800000_S1x800000_1_0) shapeCasts_S1x800000_S800000) (broadcastInDim S800000 ![] bcast_S_S800000 (constantI S_ 32 50000#32))) (shapeCast _ (extractStridedSlice S1x800000 ![1, 0] (m ((c.tc : Thread nD τ).loc main_arg1)) slices_S2x800000_S1x800000_1_0) shapeCasts_S1x800000_S800000)))))))) := by
  dsimp only [V]
  simp only [hostOps0, hostOps0_1, hostOps0_2, List.flatten_cons, List.flatten_nil, List.append_nil, List.cons_append,
    List.nil_append]
  after_results_simp <;> rfl

/-- The array the kernel's second window stages is the reference's neighbour-sum stage of the same feature matrix and
    edge list. -/
theorem neighbourSum_eq (m : (ℓ : Loc nD τ sig) → Buf (Elt Ideal) ℓ) (c : Dev nD) :
    (V m c main_v32 : S50000x128.Idx → EReal)
      = Cert.ReferenceIdeal.ReadP.val_main_v32 (F := Ideal) (m ((c : Thread nD τ).loc main_arg0)) (m ((c : Thread nD τ).loc main_arg1)) :=
  (staged_term m c).trans rfl

end Cert.KernelIdeal.Found

end
-- ==== Proof.RefLayer.lean ====
/-
  The reference's result is the layer.

  After the neighbour sum a, the reference subtracts it from x, contracts the difference's feature axis with the feature
  axis of the transposed weights, adds the bias spread over the rows, and takes the maximum with zero. Read at an entry
  (r, j): the contraction is the sum over k of (x[r, k] − a[r, k]) times the transpose's entry (k, j), which is
  w[j, k]; the bias spread is b[j]; the zero spread is 0. That is the layer's entry, term for term.
-/
import proofs.«175536_j46377056862934_1_alg».proof.Proof.RefReadPatched
import proofs.«175536_j46377056862934_1_alg».proof.Proof.DenseRelu

noncomputable section

namespace Cert.ReferenceIdeal.Layer

open Cert.ReferenceIdeal Cert.ReferenceIdeal.Gen Cert.ReferenceIdeal.ReadP Idealize.ShloMosaic Idealize.ShloMosaic.ValueIdx

/-- The reference's last stage, as a function of the four arguments, is `relu ((x − a) · wᵀ + b)` with `a` its own
    neighbour-sum stage. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    val_main_v39 (F := Ideal) x0 x1 x2 x3
      = Cert.DenseRelu.highPassLayer x0 (val_main_v32 (F := Ideal) x0 x1) x2 x3 := by
  funext i
  have el : ∀ k : Fin 128, lidx_main_v35 i k = ix2 (i 0) k := fun k => funext fun a => Fin.ext (by
    match a with
    | ⟨0, _⟩ => rfl
    | ⟨1, _⟩ => rfl)
  have er : ∀ k : Fin 128, idx_main_v34 (ridx_main_v35 i k) = ix2 (i 1) k := fun k => funext fun a => Fin.ext (by
    match a with
    | ⟨0, _⟩ => rfl
    | ⟨1, _⟩ => rfl)
  have eb : idx_main_v36 (idx_main_v37 i) = ix1 (i 1) := funext fun a => Fin.ext (by
    match a with
    | ⟨0, _⟩ => rfl)
  rw [val_main_v39_apply, val_main_v38_apply, val_main_v35_apply, val_main_v37_apply, val_main_v36_apply,
    val_main_call1_v0_apply, val_main_call1_cst_apply]
  simp only [val_main_v33_apply, val_main_v34_apply, el, er, eb]
  unfold Cert.DenseRelu.highPassLayer
  show max ((∑ k : Fin 128, (x0 (ix2 (i 0) k) - val_main_v32 (F := Ideal) x0 x1 (ix2 (i 0) k)) * x2 (ix2 (i 1) k)) + x3 (ix1 (i 1)))
      (Ideal.ofBits .f32 0x00000000#32) = _
  rw [Ideal.ofBits_zero_f32]

end Cert.ReferenceIdeal.Layer

end
-- ==== Proof.lean ====
/-
  A graph layer with a high-pass filter: for node features x : [50000, 128], an edge list of 800000 (source,
  destination) pairs, weights w : [128, 128] stored [out, in] and a bias b : [128], both programs return

      relu ((x − a) · wᵀ + b),

  where row v of a is the mean-style neighbour sum ∑ over edges (u → v) of x[u] / deg(v), with deg(v) the number of
  edges into v (and weight 0 where that number is 0).

  The two programs build a on the host by the very same operations, so a is one term on both sides and is never
  opened (Proof/NeighbourSum.lean). They differ only after it. The reference subtracts, contracts with the transposed
  weights, adds the bias and rectifies, all on whole arrays (Proof/RefLayer.lean reads that at an entry). The kernel
  hands x, a, the transposed weights and the bias row to a region of 25 grid points, each of which computes 2000 rows:
  the difference of its two blocks, narrowed to bf16, times the narrowed weights on the matrix unit into a zero
  accumulator, plus the bias row, rectified. On the extended reals narrowing is the identity and a matrix product
  read at an entry is the plain sum over the contracted axis, so a block's entry is the layer's entry
  (Proof/BlockPayload.lean), the staged weights and bias are the arguments' transpose and reshape
  (Proof/RegionArrays.lean), and the 25 blocks tile the rows (Proof/KernelArray.lean). No law beyond reading both
  contractions as the same sum is needed, so finiteness of the inputs is never used.

  The frames: the two kernel programs' are the generated frame certificates; the reference's is its run with the
  result dropped. The idealization rewrote nothing, so `preserves` is trivial.
-/
import proofs.«175536_j46377056862934_1_alg».proof.Defs
import proofs.«175536_j46377056862934_1_alg».proof.Proof.Gen.Kernel
import proofs.«175536_j46377056862934_1_alg».proof.Proof.Gen.Kernel.Skeleton
import proofs.«175536_j46377056862934_1_alg».proof.Proof.Gen.Kernel.Launch
import proofs.«175536_j46377056862934_1_alg».proof.Proof.Gen.Kernel.Points
import proofs.«175536_j46377056862934_1_alg».proof.Proof.Gen.Kernel.Frame
import proofs.«175536_j46377056862934_1_alg».proof.Proof.Gen.KernelIdeal
import proofs.«175536_j46377056862934_1_alg».proof.Proof.Gen.KernelIdeal.Skeleton
import proofs.«175536_j46377056862934_1_alg».proof.Proof.Gen.KernelIdeal.Launch
import proofs.«175536_j46377056862934_1_alg».proof.Proof.Gen.KernelIdeal.Points
import proofs.«175536_j46377056862934_1_alg».proof.Proof.Gen.KernelIdeal.Frame
import proofs.«175536_j46377056862934_1_alg».proof.Proof.Gen.KernelIdeal.Value
import proofs.«175536_j46377056862934_1_alg».proof.Proof.Gen.ReferenceIdeal
import proofs.«175536_j46377056862934_1_alg».proof.Proof.RefRunPatched
import proofs.«175536_j46377056862934_1_alg».proof.Proof.RefReadPatched
import proofs.«175536_j46377056862934_1_alg».proof.Proof.Gen.Pre_finite_inputs
import proofs.«175536_j46377056862934_1_alg».proof.Proof.KernelArray
import proofs.«175536_j46377056862934_1_alg».proof.Proof.NeighbourSum
import proofs.«175536_j46377056862934_1_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result's value dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the result array at the layer of the four arguments, the neighbour sum being the
    reference's own stage of the feature matrix and the edge list. -/
theorem algebraic : Cert.algebraic_KernelIdeal_ReferenceIdeal := by
  intro m ρ m' ρ' _ hagree
  refine ⟨fun c => Cert.DenseRelu.highPassLayer
      (m ((c.tc : Thread Cert.KernelIdeal.nD Cert.KernelIdeal.τ).loc Cert.KernelIdeal.main_arg0))
      (Cert.ReferenceIdeal.ReadP.val_main_v32 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Value.run_blocks m ρ)
    rw [Cert.KernelIdeal.Whole.array_eq]
    show Cert.DenseRelu.highPassLayer (Cert.KernelIdeal.Gen.V m c Cert.KernelIdeal.main_arg0)
      (Cert.KernelIdeal.Gen.V m c Cert.KernelIdeal.main_v32) _ _ = _
    rw [Cert.KernelIdeal.Gen.V_main_arg0, Cert.KernelIdeal.Found.neighbourSum_eq]
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v39_eq, Cert.ReferenceIdeal.Layer.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
